-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x2048 : Shape := ⟨2, ![512, 2048]⟩
abbrev S2048 : Shape := ⟨1, ![2048]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S512x2048 .f32) (main_arg6 : FVec F S2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S32768x512 .f32) (main_arg1 : FVec F S32768x512 .f32) (main_arg2 : FVec F S32768x512 .f32) (main_arg3 : FVec F S512x2048 .f32) (main_arg4 : FVec F S2048 .f32) (main_arg5 : FVec F S512x2048 .f32) (main_arg6 : FVec F S2048 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_v13 main_v16
-- ==== Kernel.lean ====
abbrev S32768x512 : Shape := ⟨2, ![32768, 512]⟩
abbrev S512x2048 : Shape := ⟨2, ![512, 2048]⟩
abbrev S2048 : Shape := ⟨1, ![2048]⟩
abbrev S1x2048 : Shape := ⟨2, ![1, 2048]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x2048, .f32⟩
  | .hbm, ⟨4, _⟩ => ⟨S2048, .f32⟩
  | .hbm, ⟨5, _⟩ => ⟨S512x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S32768x512, .f32⟩
  | .hbm, ⟨10, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x2048, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S2048_S1x2048 : S2048.ShapeCasts S1x2048
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .f32 = 32 ∨ (Rect.block (s := S512x2048) S512x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S32768x512.size a
  hwx0_7 : ∀ i : grid0.Coords, EltTy.bits .f32 = 32 ∨ (Rect.block (s := S32768x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S32768x512.size a
  hwx0_8 : ∀ i : grid0.Coords, EltTy.bits .f32 = 32 ∨ (Rect.block (s := S32768x512) S512x512.size (cc0_transform_8 i) (hinb0_8 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x2048 : Shape := ⟨2, ![512, 2048]⟩
abbrev S2048 : Shape := ⟨1, ![2048]⟩
abbrev S32768x2048 : Shape := ⟨2, ![32768, 2048]⟩
abbrev S1x2048 : Shape := ⟨2, ![1, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x2048, .f32⟩
  | .hbm, ⟨4, _⟩ => ⟨S2048, .f32⟩
  | .hbm, ⟨5, _⟩ => ⟨S512x2048, .f32⟩
  | .hbm, ⟨6, _⟩ => ⟨S2048, .f32⟩
  | .hbm, ⟨7, _⟩ => ⟨S32768x2048, .f32⟩
  | .hbm, ⟨8, _⟩ => ⟨S1x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S1x2048, .f32⟩
  | .hbm, ⟨14, _⟩ => ⟨S32768x2048, .f32⟩
  | .hbm, ⟨15, _⟩ => ⟨S32768x2048, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S_, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .f32⟩
  | .hbm, ⟨41, _⟩ => ⟨S_, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x512, .f32⟩
  | .hbm, ⟨48, _⟩ => ⟨S32768x512, .f32⟩
  | .hbm, ⟨49, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  slices_S32768x2048_S32768x512_0_0 : S32768x2048.Slices ![0, 0] S32768x512
  slices_S32768x2048_S32768x512_0_512 : S32768x2048.Slices ![0, 512] S32768x512
  slices_S32768x2048_S32768x512_0_1024 : S32768x2048.Slices ![0, 1024] S32768x512
  slices_S32768x2048_S32768x512_0_1536 : S32768x2048.Slices ![0, 1536] S32768x512
  bcast_S_S32768x512 : S_.BroadcastsInDim S32768x512 (![] : Fin 0 → Fin S32768x512.rank)
  dot_S32768x512_S512x2048_S32768x2048_1_0_0_1_n_n_wf : DotDims.WF S32768x512 S512x2048 S32768x2048 [1] [0] [0] [1] [] []

variable [Facts₀]

def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf

class Facts : Prop extends Facts₀ where

variable [Facts]
-- ==== Proof.CellSpec.lean ====
/-
  The LSTM cell, as a function of whole argument arrays over the extended reals.

  For a batch row `r` and a gate column `j` the pre-activation is
      z r j = (Σ_k x[r,k]·Wx[k,j]) + (Σ_k h[r,k]·Wh[k,j]) + bx[j] + bh[j],
  the four gates of hidden unit `c` read columns `c`, `c + 512`, `c + 1024`, `c + 1536` of it
  (input, forget, output, candidate), and
      C'[r,c] = σ(z r (c+512))·C[r,c] + σ(z r c)·tanh(z r (c+1536)),
      h'[r,c] = σ(z r (c+1024))·tanh(C'[r,c]),
  with σ the logistic function `1 / (1 + e^(-t))` on the extended reals.

  The only algebra between the two programs is the ORDER of the four summands of `z`: addition on
  the extended reals is commutative and associative everywhere (the infinities included), so no
  finiteness is needed (`preact_reorder`).
-/
import Idealize.ShloMosaic.PureOps.Ideal
import Idealize.ShloMosaic.PureOps.IdealRules
import Idealize.ShloMosaic.Lib.ValueIdx

noncomputable section

namespace Cert.LstmCell

open Idealize.ShloMosaic Idealize.ShloMosaic.ValueIdx

/-- A batch-by-feature array, a weight matrix, a bias vector. -/
abbrev Rows : Shape := ⟨2, ![32768, 512]⟩
abbrev Wts : Shape := ⟨2, ![512, 2048]⟩
abbrev Bias : Shape := ⟨1, ![2048]⟩

/-- Column `c + off` of the stacked gate axis: gate number `off / 512` of hidden unit `c`. -/
abbrev gateCol (off : Nat) (hoff : off + 512 ≤ 2048) (c : Fin 512) : Fin 2048 :=
  ⟨c.val + off, by have := c.isLt; omega⟩

/-- The pre-activation at row `r`, gate column `j`: both matrix products first, then the two biases. -/
def preact (x h : Rows.Idx → EReal) (Wx Wh : Wts.Idx → EReal) (bx bh : Bias.Idx → EReal)
    (r : Fin 32768) (j : Fin 2048) : EReal :=
  (∑ k : Fin 512, x (ix2 r k) * Wx (ix2 k j)) + (∑ k : Fin 512, h (ix2 r k) * Wh (ix2 k j)) + bx (ix1 j) + bh (ix1 j)

/-- Summing as `(x·Wx + bx) + h·Wh + bh` instead gives the same extended real: `+` is commutative and
    associative on the extended reals without any finiteness. -/
theorem preact_reorder (a b p q : EReal) : a + p + b + q = a + b + p + q := by
  rw [add_right_comm a p b]

/-- The new cell state at row `r`, hidden unit `c`. -/
def cellAt (x C h : Rows.Idx → EReal) (Wx Wh : Wts.Idx → EReal) (bx bh : Bias.Idx → EReal)
    (r : Fin 32768) (c : Fin 512) : EReal :=
  Ideal.logistic (preact x h Wx Wh bx bh r (gateCol 512 (by omega) c)) * C (ix2 r c)
    + Ideal.logistic (preact x h Wx Wh bx bh r (gateCol 0 (by omega) c))
      * Ideal.tanh (preact x h Wx Wh bx bh r (gateCol 1536 (by omega) c))

/-- The new hidden state at row `r`, hidden unit `c`. -/
def hiddenAt (x C h : Rows.Idx → EReal) (Wx Wh : Wts.Idx → EReal) (bx bh : Bias.Idx → EReal)
    (r : Fin 32768) (c : Fin 512) : EReal :=
  Ideal.logistic (preact x h Wx Wh bx bh r (gateCol 1024 (by omega) c)) * Ideal.tanh (cellAt x C h Wx Wh bx bh r c)

/-- The new cell state as a whole array. -/
def cellNew (x C h : Rows.Idx → EReal) (Wx Wh : Wts.Idx → EReal) (bx bh : Bias.Idx → EReal) : Rows.Idx → EReal :=
  fun i => cellAt x C h Wx Wh bx bh (i 0) (i 1)

/-- The new hidden state as a whole array. -/
def hiddenNew (x C h : Rows.Idx → EReal) (Wx Wh : Wts.Idx → EReal) (bx bh : Bias.Idx → EReal) : Rows.Idx → EReal :=
  fun i => hiddenAt x C h Wx Wh bx bh (i 0) (i 1)

/-- The f32 word of `1.0` is the extended real `1`. -/
theorem one_word : Ideal.ofBits .f32 0x3F800000#32 = 1 := IdealRules.sign_bit.ideal_onePat .f32

/-- The logistic function spelt out with that word for its two ones: `1 / (1 + e^(-t))`. -/
theorem logistic_spelt (t : EReal) :
    Ideal.div (Ideal.ofBits .f32 0x3F800000#32) (Ideal.ofBits .f32 0x3F800000#32 + Ideal.exp (-t)) = Ideal.logistic t := by
  rw [one_word]; rfl

end Cert.LstmCell

end
-- ==== Proof.RefCell.lean ====
/-
  The reference computes the LSTM cell of `CellSpec`: its two results, read index by index through
  the stages of its run, are `cellNew` and `hiddenNew` of its argument arrays.

  Every stage is read at an index from its operands (one lemma a stage); the two `dot_general`s are
  sums over the contracted axis, the four column slices shift the gate column by 0, 512, 1024 and
  1536, and jax's expansion of the logistic function, `1 / (1 + exp (-t))` with both ones the f32
  word of 1.0, is the logistic function itself. The reference adds the summands of the pre-activation
  in the order `((x·Wx + bx) + h·Wh) + bh`; `preact_reorder` brings that to the specification's order.
-/
import proofs.«136721_j16346645529184_1_alg».proof.Proof.Gen.ReferenceIdeal.Read
import proofs.«136721_j16346645529184_1_alg».proof.Proof.CellSpec

noncomputable section

namespace Cert.ReferenceIdeal.CellValue

open Cert.ReferenceIdeal Cert.ReferenceIdeal.Gen Cert.ReferenceIdeal.Read
open Idealize.ShloMosaic Idealize.ShloMosaic.ValueIdx Cert.LstmCell

variable (x C h : (⟨S32768x512, .f32⟩ : BufTy).Contents (Elt Ideal))
variable (Wx Wh : (⟨S512x2048, .f32⟩ : BufTy).Contents (Elt Ideal))
variable (bx bh : (⟨S2048, .f32⟩ : BufTy).Contents (Elt Ideal))

/-- The summed pre-activation stage at `(r, j)` is the specification's `preact` there. -/
theorem ref_preact (i : S32768x2048.Idx) :
    val_main_v8 (F := Ideal) x h Wx bx Wh bh i = preact x h Wx Wh bx bh (i 0) (i 1) := by
  rw [val_main_v8_apply, val_main_v5_apply, val_main_v3_apply, val_main_v0_apply, val_main_v4_apply,
    val_main_v2_apply, val_main_v1_apply, val_main_v7_apply, val_main_v6_apply]
  have el0 : ∀ k : Fin 512, lidx_main_v0 i k = ix2 (i 0) k := fun k =>
    funext fun a => Fin.ext (by match a with | ⟨0, _⟩ => rfl | ⟨1, _⟩ => rfl)
  have er0 : ∀ k : Fin 512, ridx_main_v0 i k = ix2 k (i 1) := fun k =>
    funext fun a => Fin.ext (by match a with | ⟨0, _⟩ => rfl | ⟨1, _⟩ => rfl)
  have el4 : ∀ k : Fin 512, lidx_main_v4 i k = ix2 (i 0) k := fun k =>
    funext fun a => Fin.ext (by match a with | ⟨0, _⟩ => rfl | ⟨1, _⟩ => rfl)
  have er4 : ∀ k : Fin 512, ridx_main_v4 i k = ix2 k (i 1) := fun k =>
    funext fun a => Fin.ext (by match a with | ⟨0, _⟩ => rfl | ⟨1, _⟩ => rfl)
  have eb1 : idx_main_v1 (idx_main_v2 i) = ix1 (i 1) :=
    funext fun a => Fin.ext (by match a with | ⟨0, _⟩ => rfl)
  have eb6 : idx_main_v6 (idx_main_v7 i) = ix1 (i 1) :=
    funext fun a => Fin.ext (by match a with | ⟨0, _⟩ => rfl)
  simp only [el0, er0, el4, er4, eb1, eb6]
  exact preact_reorder _ _ _ _

/-- The input gate: the logistic function of the pre-activation's column `c`. -/
theorem ref_input_gate (r : Fin 32768) (c : Fin 512) :
    val_main_v18 (F := Ideal) x h Wx bx Wh bh (ix2 r c)
      = Ideal.logistic (preact x h Wx Wh bx bh r (gateCol 0 (by omega) c)) := by
  rw [val_main_v18_apply, val_main_v17_apply, val_main_cst_0_apply, val_main_v16_apply, val_main_v15_apply,
    val_main_cst_apply, val_main_v14_apply, val_main_v13_apply, val_main_v9_apply, ref_preact]
  have e0 : idx_main_v9 (ix2 r c) 0 = r := rfl
  have e1 : idx_main_v9 (ix2 r c) 1 = gateCol 0 (by omega) c := Fin.ext (by show c.val = c.val + 0; omega)
  rw [e0, e1]
  exact logistic_spelt _

/-- The forget gate: column `c + 512`. -/
theorem ref_forget_gate (r : Fin 32768) (c : Fin 512) :
    val_main_v24 (F := Ideal) x h Wx bx Wh bh (ix2 r c)
      = Ideal.logistic (preact x h Wx Wh bx bh r (gateCol 512 (by omega) c)) := by
  rw [val_main_v24_apply, val_main_v23_apply, val_main_cst_2_apply, val_main_v22_apply, val_main_v21_apply,
    val_main_cst_1_apply, val_main_v20_apply, val_main_v19_apply, val_main_v10_apply, ref_preact]
  have e0 : idx_main_v10 (ix2 r c) 0 = r := rfl
  have e1 : idx_main_v10 (ix2 r c) 1 = gateCol 512 (by omega) c := Fin.ext (by show 512 + c.val = c.val + 512; omega)
  rw [e0, e1]
  exact logistic_spelt _

/-- The output gate: column `c + 1024`. -/
theorem ref_output_gate (r : Fin 32768) (c : Fin 512) :
    val_main_v30 (F := Ideal) x h Wx bx Wh bh (ix2 r c)
      = Ideal.logistic (preact x h Wx Wh bx bh r (gateCol 1024 (by omega) c)) := by
  rw [val_main_v30_apply, val_main_v29_apply, val_main_cst_4_apply, val_main_v28_apply, val_main_v27_apply,
    val_main_cst_3_apply, val_main_v26_apply, val_main_v25_apply, val_main_v11_apply, ref_preact]
  have e0 : idx_main_v11 (ix2 r c) 0 = r := rfl
  have e1 : idx_main_v11 (ix2 r c) 1 = gateCol 1024 (by omega) c := Fin.ext (by show 1024 + c.val = c.val + 1024; omega)
  rw [e0, e1]
  exact logistic_spelt _

/-- The candidate: the hyperbolic tangent of column `c + 1536`. -/
theorem ref_candidate (r : Fin 32768) (c : Fin 512) :
    val_main_v31 (F := Ideal) x h Wx bx Wh bh (ix2 r c)
      = Ideal.tanh (preact x h Wx Wh bx bh r (gateCol 1536 (by omega) c)) := by
  rw [val_main_v31_apply, val_main_v12_apply, ref_preact]
  have e0 : idx_main_v12 (ix2 r c) 0 = r := rfl
  have e1 : idx_main_v12 (ix2 r c) 1 = gateCol 1536 (by omega) c := Fin.ext (by show 1536 + c.val = c.val + 1536; omega)
  rw [e0, e1]
  rfl

/-- The reference's new cell state at `(r, c)`. -/
theorem ref_cell_at (r : Fin 32768) (c : Fin 512) :
    val_main_v34 (F := Ideal) x C h Wx bx Wh bh (ix2 r c) = cellAt x C h Wx Wh bx bh r c := by
  rw [val_main_v34_apply, val_main_v32_apply, val_main_v33_apply, ref_forget_gate, ref_input_gate, ref_candidate]
  rfl

/-- The reference's new hidden state at `(r, c)`. -/
theorem ref_hidden_at (r : Fin 32768) (c : Fin 512) :
    val_main_v36 (F := Ideal) x C h Wx bx Wh bh (ix2 r c) = hiddenAt x C h Wx Wh bx bh r c := by
  rw [val_main_v36_apply, val_main_v35_apply, ref_output_gate, ref_cell_at]
  rfl

/-- The reference's first result is the specification's new cell state. -/
theorem ref_cell : val_main_v34 (F := Ideal) x C h Wx bx Wh bh = cellNew x C h Wx Wh bx bh := by
  funext i
  obtain ⟨r, c, rfl⟩ : ∃ (r : Fin 32768) (c : Fin 512), i = ix2 r c := ⟨i 0, i 1, eq_ix2 i⟩
  exact ref_cell_at x C h Wx Wh bx bh r c

/-- The reference's second result is the specification's new hidden state. -/
theorem ref_hidden : val_main_v36 (F := Ideal) x C h Wx bx Wh bh = hiddenNew x C h Wx Wh bx bh := by
  funext i
  obtain ⟨r, c, rfl⟩ : ∃ (r : Fin 32768) (c : Fin 512), i = ix2 r c := ⟨i 0, i 1, eq_ix2 i⟩
  exact ref_hidden_at x C h Wx Wh bx bh r c

end Cert.ReferenceIdeal.CellValue

end
-- ==== Proof.KernelPreact.lean ====
/-
  The kernel body's pre-activation, at an index of a grid point's [512, 2048] tile.

  The body casts its four matrix operands to bf16 (the identity on the extended reals), multiplies
  the x-tile by Wx and the h-tile by Wh into zero accumulators, adds the two products and then the
  two bias rows, each broadcast from [1, 2048] down the 512 rows. Read at `(p, j)` that is
      (Σ_k X[p,k]·Wx[k,j]) + (Σ_k H[p,k]·Wh[k,j]) + bx[0,j] + bh[0,j]
  — the specification's order of summation, over the tile's own rows.
-/
import proofs.«136721_j16346645529184_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.CellValue

open Cert.KernelIdeal Cert.KernelIdeal.Gen
open Idealize.ShloMosaic Idealize.ShloMosaic.ValueIdx

/-! ## The matrix product's operand indices: (row, k) on the left, (k, column) on the right -/

theorem lhs_row (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_contr (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_contr (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_col (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- A tile's product with a weight matrix, both cast to bf16, into a zero accumulator: at `(p, j)` the
    sum over the contracted axis of the tile's row `p` against the matrix's column `j`. -/
theorem block_product (A : Vec Ideal S512x512 .f32) (B : Vec Ideal S512x2048 .f32) (p : Fin 512) (j : Fin 2048) :
    matmul (F := Ideal) dot_S512x512_S512x2048_S512x2048_1_0_0_1_n_n none (truncf .bf16 A bitsLt_bf16_f32) (truncf .bf16 B bitsLt_bf16_f32)
        (constant (F := Ideal) S512x2048 .f32 0x00000000#32) (ix2 p j)
      = ∑ k : Fin 512, A (ix2 p k) * B (ix2 k j) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p j) ((contrEquiv1 dot_S512x512_S512x2048_S512x2048_1_0_0_1_n_n 512 rfl rfl).symm k) = ix2 p k := funext fun a => Fin.ext (by
    match a with
    | ⟨0, _⟩ => exact lhs_row _ _
    | ⟨1, _⟩ => exact (lhs_contr _ _).trans hk)
  have er : dot_S512x512_S512x2048_S512x2048_1_0_0_1_n_n.rhsIdx (ix2 p j) ((contrEquiv1 dot_S512x512_S512x2048_S512x2048_1_0_0_1_n_n 512 rfl rfl).symm k) = ix2 k j := funext fun a => Fin.ext (by
    match a with
    | ⟨0, _⟩ => exact (rhs_contr _ _).trans hk
    | ⟨1, _⟩ => exact rhs_col _ _)
  rw [el, er]
  rfl

/-- A bias row, shape-cast to its own shape and broadcast down the tile's rows: at `(p, j)` its entry `j`. -/
theorem bias_row (b : Vec Ideal S1x2048 .f32) (p : Fin 512) (j : Fin 2048) :
    broadcastTo S512x2048 (shapeCast S1x2048 b shapeCasts_S1x2048_S1x2048) broadcasts_S1x2048_S512x2048 (ix2 p j)
      = b (ix2 (0 : Fin 1) j) := by
  rw [shapeCast_self]
  exact broadcastTo_apply b broadcasts_S1x2048_S512x2048 (ix2 p j) (ix2 (0 : Fin 1) j) (fun a => match a with
    | ⟨0, _⟩ => by show (0 : Nat) = if (1 : Nat) = 1 then 0 else p.val; rw [if_pos rfl]
    | ⟨1, _⟩ => by show j.val = if (2048 : Nat) = 1 then 0 else j.val; rw [if_neg (by decide)])

/-- The body's pre-activation payload at `(p, j)` of the tile. -/
theorem block_preact (P0 P1 : Vec Ideal S512x512 .f32) (P2 P3 : Vec Ideal S512x2048 .f32) (P4 P5 : Vec Ideal S1x2048 .f32)
    (p : Fin 512) (j : Fin 2048) :
    k0_pay1 (F := Ideal) P0 P1 P2 P3 P4 P5 (ix2 p j)
      = (∑ k : Fin 512, P0 (ix2 p k) * P2 (ix2 k j)) + (∑ k : Fin 512, P1 (ix2 p k) * P3 (ix2 k j))
          + P4 (ix2 (0 : Fin 1) j) + P5 (ix2 (0 : Fin 1) j) :=
  congrArg₂ (· + ·) (congrArg₂ (· + ·) (congrArg₂ (· + ·) (block_product P0 P2 p j) (block_product P1 P3 p j))
    (bias_row P4 p j)) (bias_row P5 p j)

end Cert.KernelIdeal.CellValue

end
-- ==== Proof.KernelTile.lean ====
/-
  One grid point's tile of the two outputs, as the specification at the tile's rows.

  A grid point loads seven tiles: rows `R … R + 511` of x, h and C, the whole of Wx and Wh, and the
  two bias vectors as single rows of [1, 2048] arrays. Whatever the seven loaded tiles are called,
  if they ARE those parts of the argument arrays (`TileOf`), then the block the body's first store
  leaves is the new cell state at rows `R + p`, and the block its second store leaves the new hidden
  state there: the pre-activation payload is the specification's `preact` at row `R + p`
  (`tile_preact`), and the four column slices pick the gate columns `c`, `c + 512`, `c + 1024`,
  `c + 1536`.
-/
import proofs.«136721_j16346645529184_1_alg».proof.Proof.Gen.KernelIdeal.Value
import proofs.«136721_j16346645529184_1_alg».proof.Proof.KernelPreact
import proofs.«136721_j16346645529184_1_alg».proof.Proof.CellSpec

noncomputable section

namespace Cert.KernelIdeal.CellValue

open Cert.KernelIdeal Cert.KernelIdeal.Gen Cert.KernelIdeal.Value
open Idealize.ShloMosaic Idealize.ShloMosaic.ValueIdx Cert.LstmCell

/-- Row `p` of the tile that starts at batch row `R`. -/
abbrev tileRow (R : Nat) (hR : R + 512 ≤ 32768) (p : Fin 512) : Fin 32768 := ⟨R + p.val, by have := p.isLt; omega⟩

/-- The seven loaded tiles are the rows `R … R + 511` of x, h and C, all of Wx and Wh, and the bias
    vectors as rows. -/
structure TileOf (X Cc H : S32768x512.Idx → EReal) (Wx Wh : S512x2048.Idx → EReal) (bx bh : S2048.Idx → EReal)
    (P0 P1 : Vec Ideal S512x512 .f32) (P2 P3 : Vec Ideal S512x2048 .f32) (P4 P5 : Vec Ideal S1x2048 .f32)
    (P6 : Vec Ideal S512x512 .f32) (R : Nat) (hR : R + 512 ≤ 32768) : Prop where
  xrows : ∀ (p k : Fin 512), P0 (ix2 p k) = X (ix2 (tileRow R hR p) k)
  hrows : ∀ (p k : Fin 512), P1 (ix2 p k) = H (ix2 (tileRow R hR p) k)
  crows : ∀ (p q : Fin 512), P6 (ix2 p q) = Cc (ix2 (tileRow R hR p) q)
  wx : ∀ (k : Fin 512) (j : Fin 2048), P2 (ix2 k j) = Wx (ix2 k j)
  wh : ∀ (k : Fin 512) (j : Fin 2048), P3 (ix2 k j) = Wh (ix2 k j)
  bxrow : ∀ j : Fin 2048, P4 (ix2 (0 : Fin 1) j) = bx (ix1 j)
  bhrow : ∀ j : Fin 2048, P5 (ix2 (0 : Fin 1) j) = bh (ix1 j)

section
variable {X Cc H : S32768x512.Idx → EReal} {Wx Wh : S512x2048.Idx → EReal} {bx bh : S2048.Idx → EReal}
variable {P0 P1 : Vec Ideal S512x512 .f32} {P2 P3 : Vec Ideal S512x2048 .f32} {P4 P5 : Vec Ideal S1x2048 .f32}
variable {P6 : Vec Ideal S512x512 .f32} {R : Nat} {hR : R + 512 ≤ 32768}

/-- The tile's pre-activation at `(p, j)` is the specification's at batch row `R + p`. -/
theorem tile_preact (T : TileOf X Cc H Wx Wh bx bh P0 P1 P2 P3 P4 P5 P6 R hR) (p : Fin 512) (j : Fin 2048) :
    k0_pay1 (F := Ideal) P0 P1 P2 P3 P4 P5 (ix2 p j) = preact X H Wx Wh bx bh (tileRow R hR p) j := by
  rw [block_preact]
  unfold preact
  refine congrArg₂ (· + ·) (congrArg₂ (· + ·) (congrArg₂ (· + ·)
    (Finset.sum_congr rfl fun k _ => ?_) (Finset.sum_congr rfl fun k _ => ?_)) (T.bxrow j)) (T.bhrow j)
  · rw [T.xrows p k, T.wx k j]
  · rw [T.hrows p k, T.wh k j]

/-- The block the first store leaves, at `(p, q)`: the new cell state at row `R + p`, hidden unit `q`. -/
theorem tile_cell (T : TileOf X Cc H Wx Wh bx bh P0 P1 P2 P3 P4 P5 P6 R hR) (p q : Fin 512) :
    E7 (F := Ideal) P0 P1 P2 P3 P4 P5 P6 (ix2 p q) = cellAt X Cc H Wx Wh bx bh (tileRow R hR p) q := by
  have e0 : ix7_0 (ix2 p q) = ix2 p (gateCol 512 (by omega) q) :=
    funext fun a => Fin.ext (by match a with | ⟨0, _⟩ => rfl | ⟨1, _⟩ => rfl)
  have e1 : ix7_1 (ix2 p q) = ix2 p q :=
    funext fun a => Fin.ext (by match a with | ⟨0, _⟩ => rfl | ⟨1, _⟩ => rfl)
  have e2 : ix7_2 (ix2 p q) = ix2 p (gateCol 0 (by omega) q) :=
    funext fun a => Fin.ext (by match a with | ⟨0, _⟩ => rfl | ⟨1, _⟩ => rfl)
  have e3 : ix7_3 (ix2 p q) = ix2 p (gateCol 1536 (by omega) q) :=
    funext fun a => Fin.ext (by match a with | ⟨0, _⟩ => rfl | ⟨1, _⟩ => rfl)
  show FloatOps.addf (FloatOps.mulf (FloatOps.logistic ((k0_pay1 (F := Ideal) P0 P1 P2 P3 P4 P5) (ix7_0 (ix2 p q)))) (P6 (ix7_1 (ix2 p q))))
      (FloatOps.mulf (FloatOps.logistic ((k0_pay1 (F := Ideal) P0 P1 P2 P3 P4 P5) (ix7_2 (ix2 p q))))
        (FloatOps.tanh ((k0_pay1 (F := Ideal) P0 P1 P2 P3 P4 P5) (ix7_3 (ix2 p q))))) = _
  rw [e0, e1, e2, e3, tile_preact T, tile_preact T, tile_preact T, T.crows]
  rfl

/-- The block the second store leaves, at `(p, q)`: the new hidden state at row `R + p`, hidden unit `q`. -/
theorem tile_hidden (T : TileOf X Cc H Wx Wh bx bh P0 P1 P2 P3 P4 P5 P6 R hR) (p q : Fin 512) :
    E8 (F := Ideal) P0 P1 P2 P3 P4 P5 P6 (ix2 p q) = hiddenAt X Cc H Wx Wh bx bh (tileRow R hR p) q := by
  have e0 : ix8_0 (ix2 p q) = ix2 p (gateCol 1024 (by omega) q) :=
    funext fun a => Fin.ext (by match a with | ⟨0, _⟩ => rfl | ⟨1, _⟩ => rfl)
  have e1 : ix8_1 (ix2 p q) = ix2 p (gateCol 512 (by omega) q) :=
    funext fun a => Fin.ext (by match a with | ⟨0, _⟩ => rfl | ⟨1, _⟩ => rfl)
  have e2 : ix8_2 (ix2 p q) = ix2 p q :=
    funext fun a => Fin.ext (by match a with | ⟨0, _⟩ => rfl | ⟨1, _⟩ => rfl)
  have e3 : ix8_3 (ix2 p q) = ix2 p (gateCol 0 (by omega) q) :=
    funext fun a => Fin.ext (by match a with | ⟨0, _⟩ => rfl | ⟨1, _⟩ => rfl)
  have e4 : ix8_4 (ix2 p q) = ix2 p (gateCol 1536 (by omega) q) :=
    funext fun a => Fin.ext (by match a with | ⟨0, _⟩ => rfl | ⟨1, _⟩ => rfl)
  show FloatOps.mulf (FloatOps.logistic ((k0_pay1 (F := Ideal) P0 P1 P2 P3 P4 P5) (ix8_0 (ix2 p q))))
      (FloatOps.tanh (FloatOps.addf
        (FloatOps.mulf (FloatOps.logistic ((k0_pay1 (F := Ideal) P0 P1 P2 P3 P4 P5) (ix8_1 (ix2 p q)))) (P6 (ix8_2 (ix2 p q))))
        (FloatOps.mulf (FloatOps.logistic ((k0_pay1 (F := Ideal) P0 P1 P2 P3 P4 P5) (ix8_3 (ix2 p q))))
          (FloatOps.tanh ((k0_pay1 (F := Ideal) P0 P1 P2 P3 P4 P5) (ix8_4 (ix2 p q))))))) = _
  rw [e0, e1, e2, e3, e4, tile_preact T, tile_preact T, tile_preact T, tile_preact T, T.crows]
  rfl

end

end Cert.KernelIdeal.CellValue

end
-- ==== Proof.KernelRun.lean ====
/-
  The kernel's run: after it the two result arrays hold the new cell state and the new hidden state
  of the argument arrays.

  Grid point `t` of 64 stages rows `512·t … 512·t + 511` of x, h and C, the whole of Wx and Wh and
  the two bias rows (the block index maps, decided over the grid: `block_indices`), so its loaded
  tiles are those parts of the arrays (`tile_of`); the bias rows are the bias vectors reshaped to
  [1, 2048] by the two host operations before the call (`bx_entry`, `bh_entry`). What the point
  writes back is therefore block `t` of the specification (`flushed_cell`, `flushed_hidden`), the 64
  blocks tile each [32768, 512] result (`cover_cell`, `cover_hidden`), and the arrays end at the
  specification (`final_cell`, `final_hidden`, `run`).
-/
import proofs.«136721_j16346645529184_1_alg».proof.Proof.KernelTile
import Idealize.ShloMosaic.Lib.StableHlo.Run

noncomputable section

namespace Cert.KernelIdeal.CellValue

open Cert.KernelIdeal Cert.KernelIdeal.Gen Cert.KernelIdeal.Value
open Idealize.ShloMosaic Idealize.ShloMosaic.TcCoe Idealize.SL.Sem Idealize.ShloMosaic.ValueIdx Cert.LstmCell
open Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index maps over the 64 grid points: the three batch-row windows and the two results move
    with the point along the rows, the weights and biases stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The bias rows on region entry -/

/-- A vector reshaped to one row, read at `(0, j)`, is its entry `j`. -/
theorem bias_as_row (b : S2048.Idx → EReal) (j : Fin 2048) :
    shapeCast S1x2048 b shapeCasts_S2048_S1x2048 (ix2 (0 : Fin 1) j) = b (ix1 j) :=
  shapeCast_apply b shapeCasts_S2048_S1x2048 (ix2 (0 : Fin 1) j) (ix1 j) (by
    rw [Shape.rowMajor_val_one, Shape.rowMajor_val_two]
    show j.val = 0 * 2048 + j.val
    omega)

/-- The first host operation leaves `bx` reshaped to [1, 2048] where window 5 stages it. -/
theorem bx_entry (c : Dev nD) :
    (V m c main_v0 : S1x2048.Idx → EReal) = shapeCast S1x2048 (m ((c : Thread nD τ).loc main_arg4)) shapeCasts_S2048_S1x2048 := by
  dsimp only [V, hostOps0]; after_results; rfl

/-- The second leaves `bh` reshaped to [1, 2048] where window 6 stages it. -/
theorem bh_entry (c : Dev nD) :
    (V m c main_v1 : S1x2048.Idx → EReal) = shapeCast S1x2048 (m ((c : Thread nD τ).loc main_arg6)) shapeCasts_S2048_S1x2048 := by
  dsimp only [V, hostOps0]; after_results; rfl

/-! ## A grid point's loaded tiles -/

/-- The tile of grid point `t` of 64 ends inside the 32768 batch rows. -/
theorem tile_bound (t : Fin cfg0.N) : t.val * 512 + 512 ≤ 32768 := by
  have h64 : cfg0.N = 64 := by decide
  have ht : t.val < 64 := lt_of_lt_of_eq t.isLt h64
  omega

/-- At grid point `t` the seven staged blocks are rows `512·t … 512·t + 511` of x, h and C, all of Wx and
    Wh, and the two bias vectors as rows. -/
theorem tile_of (c : Dev nD) (t : Fin cfg0.N) :
    TileOf (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      (iblk m c 0 t) (iblk m c 1 t) (iblk m c 3 t) (iblk m c 4 t) (iblk m c 5 t) (iblk m c 6 t) (iblk m c 2 t)
      (t.val * 512) (tile_bound t) where
  xrows := fun p k => by
    obtain ⟨e00, e01, e10, e11, e20, e21, e30, e31, e40, e41, e50, e51, e60, e61, e70, e71, e80, e81⟩ := block_indices t
    show V m c main_arg0 (((cfg0.win 0).blk t).view.emb (ix2 p k)) = _
    rw [V_main_arg0 m c]
    refine congrArg _ (funext fun a => Fin.ext ?_)
    match a with
    | ⟨0, _⟩ => show win0_0.index t (0 : Fin 2) * 512 + 1 * p.val = t.val * 512 + p.val; rw [e00]; omega
    | ⟨1, _⟩ => show win0_0.index t (1 : Fin 2) * 512 + 1 * k.val = k.val; rw [e01]; omega
  hrows := fun p k => by
    obtain ⟨e00, e01, e10, e11, e20, e21, e30, e31, e40, e41, e50, e51, e60, e61, e70, e71, e80, e81⟩ := block_indices t
    show V m c main_arg2 (((cfg0.win 1).blk t).view.emb (ix2 p k)) = _
    rw [V_main_arg2 m c]
    refine congrArg _ (funext fun a => Fin.ext ?_)
    match a with
    | ⟨0, _⟩ => show win0_1.index t (0 : Fin 2) * 512 + 1 * p.val = t.val * 512 + p.val; rw [e10]; omega
    | ⟨1, _⟩ => show win0_1.index t (1 : Fin 2) * 512 + 1 * k.val = k.val; rw [e11]; omega
  crows := fun p q => by
    obtain ⟨e00, e01, e10, e11, e20, e21, e30, e31, e40, e41, e50, e51, e60, e61, e70, e71, e80, e81⟩ := block_indices t
    show V m c main_arg1 (((cfg0.win 2).blk t).view.emb (ix2 p q)) = _
    rw [V_main_arg1 m c]
    refine congrArg _ (funext fun a => Fin.ext ?_)
    match a with
    | ⟨0, _⟩ => show win0_2.index t (0 : Fin 2) * 512 + 1 * p.val = t.val * 512 + p.val; rw [e20]; omega
    | ⟨1, _⟩ => show win0_2.index t (1 : Fin 2) * 512 + 1 * q.val = q.val; rw [e21]; omega
  wx := fun k j => by
    obtain ⟨e00, e01, e10, e11, e20, e21, e30, e31, e40, e41, e50, e51, e60, e61, e70, e71, e80, e81⟩ := block_indices t
    show V m c main_arg3 (((cfg0.win 3).blk t).view.emb (ix2 k j)) = _
    rw [V_main_arg3 m c]
    refine congrArg _ (funext fun a => Fin.ext ?_)
    match a with
    | ⟨0, _⟩ => show win0_3.index t (0 : Fin 2) * 512 + 1 * k.val = k.val; rw [e30]; omega
    | ⟨1, _⟩ => show win0_3.index t (1 : Fin 2) * 2048 + 1 * j.val = j.val; rw [e31]; omega
  wh := fun k j => by
    obtain ⟨e00, e01, e10, e11, e20, e21, e30, e31, e40, e41, e50, e51, e60, e61, e70, e71, e80, e81⟩ := block_indices t
    show V m c main_arg5 (((cfg0.win 4).blk t).view.emb (ix2 k j)) = _
    rw [V_main_arg5 m c]
    refine congrArg _ (funext fun a => Fin.ext ?_)
    match a with
    | ⟨0, _⟩ => show win0_4.index t (0 : Fin 2) * 512 + 1 * k.val = k.val; rw [e40]; omega
    | ⟨1, _⟩ => show win0_4.index t (1 : Fin 2) * 2048 + 1 * j.val = j.val; rw [e41]; omega
  bxrow := fun j => by
    obtain ⟨e00, e01, e10, e11, e20, e21, e30, e31, e40, e41, e50, e51, e60, e61, e70, e71, e80, e81⟩ := block_indices t
    show V m c main_v0 (((cfg0.win 5).blk t).view.emb (ix2 (0 : Fin 1) j)) = _
    have ei : ((cfg0.win 5).blk t).view.emb (ix2 (0 : Fin 1) j) = ix2 (0 : Fin 1) j :=
      funext fun a => Fin.ext (by
        match a with
        | ⟨0, _⟩ => show win0_5.index t (0 : Fin 2) * 1 + 1 * 0 = 0; rw [e50]
        | ⟨1, _⟩ => show win0_5.index t (1 : Fin 2) * 2048 + 1 * j.val = j.val; rw [e51]; omega)
    rw [ei, bx_entry m c]
    exact bias_as_row _ j
  bhrow := fun j => by
    obtain ⟨e00, e01, e10, e11, e20, e21, e30, e31, e40, e41, e50, e51, e60, e61, e70, e71, e80, e81⟩ := block_indices t
    show V m c main_v1 (((cfg0.win 6).blk t).view.emb (ix2 (0 : Fin 1) j)) = _
    have ei : ((cfg0.win 6).blk t).view.emb (ix2 (0 : Fin 1) j) = ix2 (0 : Fin 1) j :=
      funext fun a => Fin.ext (by
        match a with
        | ⟨0, _⟩ => show win0_6.index t (0 : Fin 2) * 1 + 1 * 0 = 0; rw [e60]
        | ⟨1, _⟩ => show win0_6.index t (1 : Fin 2) * 2048 + 1 * j.val = j.val; rw [e61]; omega)
    rw [ei, bh_entry m c]
    exact bias_as_row _ j

/-! ## What each point writes back -/

/-- What grid point `t` writes back to the cell array is block `t` of `cellNew` of the argument arrays. -/
theorem flushed_cell (c : Dev nD) (t : Fin cfg0.N) :
    (dats m 0 c).flushed 7 t = ((cfg0.win 7).blk t).view.read (Elt Ideal) (cellNew (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  have hblock : View.canon [(⟨r0_0, k0_pay2 (F := Ideal) (iblk m c 0 t) (iblk m c 1 t) (iblk m c 3 t) (iblk m c 4 t) (iblk m c 5 t) (iblk m c 6 t) (iblk m c 2 t)⟩ : View.Piece (Elt Ideal) S512x512 .f32)]
      = fun y : S512x512.Idx => cellAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (tileRow (t.val * 512) (tile_bound t) (y 0)) (y 1) := by
    funext y
    obtain ⟨p, q, rfl⟩ : ∃ (p q : Fin 512), y = ix2 p q := ⟨y 0, y 1, eq_ix2 y⟩
    exact (canon7_eq (F := Ideal) (iblk m c 0 t) (iblk m c 1 t) (iblk m c 3 t) (iblk m c 4 t) (iblk m c 5 t) (iblk m c 6 t) (iblk m c 2 t) (ix2 p q)).trans (tile_cell (tile_of m c t) p q)
  rw [flushed7]
  unfold out0_7
  simp only [View.ld_unit_zero (S := S512x512) zero_offsets, View.ld_unit_zero (S := S512x2048) zero_offsets,
    View.ld_unit_zero (S := S1x2048) zero_offsets]
  funext y
  obtain ⟨e00, e01, e10, e11, e20, e21, e30, e31, e40, e41, e50, e51, e60, e61, e70, e71, e80, e81⟩ := block_indices t
  show View.canon [(⟨r0_0, k0_pay2 (F := Ideal) (iblk m c 0 t) (iblk m c 1 t) (iblk m c 3 t) (iblk m c 4 t) (iblk m c 5 t) (iblk m c 6 t) (iblk m c 2 t)⟩ : View.Piece (Elt Ideal) S512x512 .f32)] y
    = cellNew (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 7).blk t).view.emb y)
  refine (congrFun hblock y).trans ?_
  show cellAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (tileRow (t.val * 512) (tile_bound t) (y 0)) (y 1)
    = cellAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) ((((cfg0.win 7).blk t).view.emb y) 0) ((((cfg0.win 7).blk t).view.emb y) 1)
  refine congrArg₂ (cellAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) (Fin.ext ?_) (Fin.ext ?_)
  · show t.val * 512 + (y 0).val = win0_7.index t (0 : Fin 2) * 512 + 1 * (y 0).val; rw [e70]; omega
  · show (y 1).val = win0_7.index t (1 : Fin 2) * 512 + 1 * (y 1).val; rw [e71]; omega

/-- What grid point `t` writes back to the hidden array is block `t` of `hiddenNew` of the argument arrays. -/
theorem flushed_hidden (c : Dev nD) (t : Fin cfg0.N) :
    (dats m 0 c).flushed 8 t = ((cfg0.win 8).blk t).view.read (Elt Ideal) (hiddenNew (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) := by
  have hblock : View.canon [(⟨r0_0, k0_pay3 (F := Ideal) (iblk m c 0 t) (iblk m c 1 t) (iblk m c 3 t) (iblk m c 4 t) (iblk m c 5 t) (iblk m c 6 t) (iblk m c 2 t)⟩ : View.Piece (Elt Ideal) S512x512 .f32)]
      = fun y : S512x512.Idx => hiddenAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (tileRow (t.val * 512) (tile_bound t) (y 0)) (y 1) := by
    funext y
    obtain ⟨p, q, rfl⟩ : ∃ (p q : Fin 512), y = ix2 p q := ⟨y 0, y 1, eq_ix2 y⟩
    exact (canon8_eq (F := Ideal) (iblk m c 0 t) (iblk m c 1 t) (iblk m c 3 t) (iblk m c 4 t) (iblk m c 5 t) (iblk m c 6 t) (iblk m c 2 t) (ix2 p q)).trans (tile_hidden (tile_of m c t) p q)
  rw [flushed8]
  unfold out0_8
  simp only [View.ld_unit_zero (S := S512x512) zero_offsets, View.ld_unit_zero (S := S512x2048) zero_offsets,
    View.ld_unit_zero (S := S1x2048) zero_offsets]
  funext y
  obtain ⟨e00, e01, e10, e11, e20, e21, e30, e31, e40, e41, e50, e51, e60, e61, e70, e71, e80, e81⟩ := block_indices t
  show View.canon [(⟨r0_0, k0_pay3 (F := Ideal) (iblk m c 0 t) (iblk m c 1 t) (iblk m c 3 t) (iblk m c 4 t) (iblk m c 5 t) (iblk m c 6 t) (iblk m c 2 t)⟩ : View.Piece (Elt Ideal) S512x512 .f32)] y
    = hiddenNew (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (((cfg0.win 8).blk t).view.emb y)
  refine (congrFun hblock y).trans ?_
  show hiddenAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (tileRow (t.val * 512) (tile_bound t) (y 0)) (y 1)
    = hiddenAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) ((((cfg0.win 8).blk t).view.emb y) 0) ((((cfg0.win 8).blk t).view.emb y) 1)
  refine congrArg₂ (hiddenAt (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))) (Fin.ext ?_) (Fin.ext ?_)
  · show t.val * 512 + (y 0).val = win0_8.index t (0 : Fin 2) * 512 + 1 * (y 0).val; rw [e80]; omega
  · show (y 1).val = win0_8.index t (1 : Fin 2) * 512 + 1 * (y 1).val; rw [e81]; omega

/-! ## The blocks tile the results -/

/-- An index of the cell array is in point `t`'s block iff each coordinate is in the block's range. -/
theorem mem_block_cell (t : Fin cfg0.N) (i : S32768x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v2_0).slice (win0_7.rect t)).set ↔ _
  rw [View.set_slice_whole, Rect.mem_set_unit]
  exact Iff.rfl

/-- Row `r` of the cell array is written by grid point `r / 512`: the 64 blocks tile the array. -/
theorem cover_cell (i : S32768x512.Idx) :
    ∃ t : Fin cfg0.N, (cfg0.win 7).flush t = true ∧ i ∈ ((cfg0.win 7).blk t).view.set := by
  have hi0 : (i 0).val < 32768 := (i 0).isLt
  have hi1 : (i 1).val < 512 := (i 1).isLt
  obtain ⟨t, ht⟩ : ∃ t : Fin cfg0.N, t.val = (i 0).val / 512 :=
    ⟨⟨(i 0).val / 512, by have h64 : cfg0.N = 64 := by decide
                          rw [h64]; omega⟩, rfl⟩
  obtain ⟨e00, e01, e10, e11, e20, e21, e30, e31, e40, e41, e50, e51, e60, e61, e70, e71, e80, e81⟩ := block_indices t
  refine ⟨t, flush0_7 t, ?_⟩
  rw [mem_block_cell]
  intro a
  match a with
  | ⟨0, _⟩ => show win0_7.index t (0 : Fin 2) * 512 ≤ (i 0).val ∧ (i 0).val < win0_7.index t (0 : Fin 2) * 512 + 512; rw [e70, ht]; omega
  | ⟨1, _⟩ => show win0_7.index t (1 : Fin 2) * 512 ≤ (i 1).val ∧ (i 1).val < win0_7.index t (1 : Fin 2) * 512 + 512; rw [e71]; omega

/-- An index of the hidden array is in point `t`'s block iff each coordinate is in the block's range. -/
theorem mem_block_hidden (t : Fin cfg0.N) (i : S32768x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v2_1).slice (win0_8.rect t)).set ↔ _
  rw [View.set_slice_whole, Rect.mem_set_unit]
  exact Iff.rfl

/-- Row `r` of the hidden array is written by grid point `r / 512`: the 64 blocks tile the array. -/
theorem cover_hidden (i : S32768x512.Idx) :
    ∃ t : Fin cfg0.N, (cfg0.win 8).flush t = true ∧ i ∈ ((cfg0.win 8).blk t).view.set := by
  have hi0 : (i 0).val < 32768 := (i 0).isLt
  have hi1 : (i 1).val < 512 := (i 1).isLt
  obtain ⟨t, ht⟩ : ∃ t : Fin cfg0.N, t.val = (i 0).val / 512 :=
    ⟨⟨(i 0).val / 512, by have h64 : cfg0.N = 64 := by decide
                          rw [h64]; omega⟩, rfl⟩
  obtain ⟨e00, e01, e10, e11, e20, e21, e30, e31, e40, e41, e50, e51, e60, e61, e70, e71, e80, e81⟩ := block_indices t
  refine ⟨t, flush0_8 t, ?_⟩
  rw [mem_block_hidden]
  intro a
  match a with
  | ⟨0, _⟩ => show win0_8.index t (0 : Fin 2) * 512 ≤ (i 0).val ∧ (i 0).val < win0_8.index t (0 : Fin 2) * 512 + 512; rw [e80, ht]; omega
  | ⟨1, _⟩ => show win0_8.index t (1 : Fin 2) * 512 ≤ (i 1).val ∧ (i 1).val < win0_8.index t (1 : Fin 2) * 512 + 512; rw [e81]; omega

/-! ## The arrays after the run -/

theorem final_cell (c : Dev nD) : (dats m 0 c).arrAt 7 cfg0.N = cellNew (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 7 _ (fun t _ => flushed_cell m c t) cover_cell

theorem final_hidden (c : Dev nD) : (dats m 0 c).arrAt 8 cfg0.N = hiddenNew (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) :=
  (dats m 0 c).arrAt_eq_of_cover 8 _ (fun t _ => flushed_hidden m c t) cover_hidden

/-- Every weakly fair execution of the kernel program ends with the first result at the new cell state and
    the second at the new hidden state of the argument arrays, the arguments unchanged. -/
theorem run : θ_run defs (onTc (τ := τ) (main (F := Ideal))) ⟨m, fun _ => 0, ρ⟩ fun r => ∀ c : Dev nD,
      r.2.mem ((c : Thread nD τ).loc main_v2_0) = cellNew (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_v2_1) = hiddenNew (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_cell m c), (h c).2.1.trans (final_hidden m c), (h c).2.2⟩)
    (run_blocks m ρ)

end Cert.KernelIdeal.CellValue

end
-- ==== Proof.lean ====
/-
  An LSTM cell: from x, C, h : f32[32768, 512], Wx, Wh : f32[512, 2048] and bx, bh : f32[2048],
      z  = x·Wx + h·Wh + bx + bh                      ([32768, 2048]; gate columns i | f | o | g)
      C' = σ(z_f)·C + σ(z_i)·tanh(z_g),   h' = σ(z_o)·tanh(C')
  with σ the logistic function. The kernel computes it 512 batch rows at a grid point, 64 points,
  both matrix products on bf16 casts of its operands into zero accumulators; the reference computes
  it on whole arrays, with the logistic function spelt `1 / (1 + exp (-t))` and the summands of `z`
  in the order `((x·Wx + bx) + h·Wh) + bh`.

  Over the extended reals the two agree at every input: a change of float format is the identity, a
  matrix product into a zero accumulator is the sum over the contracted axis on both sides, the
  spelt-out logistic function IS the logistic function, and `+` is commutative and associative even
  at the infinities — so the precondition (finite inputs) is never opened.

  `CellSpec` states the cell as one function of the argument arrays; `RefCell` shows the reference's
  two results are that function; `KernelPreact`, `KernelTile` and `KernelRun` show the kernel's two
  result arrays end at it (the pre-activation of a tile; a grid point's two stored blocks; the 64
  blocks tiling each result). Below, the frames are the generated ones (the reference's is its
  generated run with the results dropped), no operation was rewritten by the idealization, and the
  algebraic claim sets the two runs side by side.
-/
import proofs.«136721_j16346645529184_1_alg».proof.Defs
import proofs.«136721_j16346645529184_1_alg».proof.Proof.Gen.Kernel
import proofs.«136721_j16346645529184_1_alg».proof.Proof.Gen.Kernel.Skeleton
import proofs.«136721_j16346645529184_1_alg».proof.Proof.Gen.Kernel.Launch
import proofs.«136721_j16346645529184_1_alg».proof.Proof.Gen.Kernel.Points
import proofs.«136721_j16346645529184_1_alg».proof.Proof.Gen.Kernel.Frame
import proofs.«136721_j16346645529184_1_alg».proof.Proof.Gen.KernelIdeal
import proofs.«136721_j16346645529184_1_alg».proof.Proof.Gen.KernelIdeal.Skeleton
import proofs.«136721_j16346645529184_1_alg».proof.Proof.Gen.KernelIdeal.Launch
import proofs.«136721_j16346645529184_1_alg».proof.Proof.Gen.KernelIdeal.Points
import proofs.«136721_j16346645529184_1_alg».proof.Proof.Gen.KernelIdeal.Frame
import proofs.«136721_j16346645529184_1_alg».proof.Proof.Gen.ReferenceIdeal
import proofs.«136721_j16346645529184_1_alg».proof.Proof.Gen.Pre_finite_inputs
import proofs.«136721_j16346645529184_1_alg».proof.Proof.Gen.KernelIdeal.Value
import proofs.«136721_j16346645529184_1_alg».proof.Proof.Gen.ReferenceIdeal.Run
import proofs.«136721_j16346645529184_1_alg».proof.Proof.Gen.ReferenceIdeal.Read
import proofs.«136721_j16346645529184_1_alg».proof.Proof.RefCell
import proofs.«136721_j16346645529184_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the new cell state and the new hidden state of the same argument arrays. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · refine (Cert.ReferenceIdeal.Read.val_main_v34_eq _ _ _ _ _ _ _).trans ?_
    rw [Cert.ReferenceIdeal.CellValue.ref_cell, (hagree c).1, (hagree c).2.1, (hagree c).2.2.1, (hagree c).2.2.2.1,
      (hagree c).2.2.2.2.1, (hagree c).2.2.2.2.2.1, (hagree c).2.2.2.2.2.2]
  · refine (Cert.ReferenceIdeal.Read.val_main_v36_eq _ _ _ _ _ _ _).trans ?_
    rw [Cert.ReferenceIdeal.CellValue.ref_hidden, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
